-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x1 : Shape := ⟨2, ![5000, 1]⟩
abbrev S1x1 : Shape := ⟨2, ![1, 1]⟩

abbrev nBuf : Space → Nat
  | .hbm => 114
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000, .f32⟩
  | .hbm, ⟨59, _⟩ => ⟨S100000x1, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S1600000, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x64, .f32⟩
  | .hbm, ⟨101, _⟩ => ⟨S1600000x1, .f32⟩
  | .hbm, ⟨102, _⟩ => ⟨S1600000x64, .f32⟩
  | .hbm, ⟨103, _⟩ => ⟨S1600000x64, .f32⟩
  | .hbm, ⟨104, _⟩ => ⟨S_, .f32⟩
  | .hbm, ⟨105, _⟩ => ⟨S100000x64, .f32⟩
  | .hbm, ⟨106, _⟩ => ⟨S1600000x1, .i32⟩
  | .hbm, ⟨107, _⟩ => ⟨S100000x64, .f32⟩
  | .hbm, ⟨108, _⟩ => ⟨S100000, .f32⟩
  | .hbm, ⟨109, _⟩ => ⟨S100000x1, .f32⟩
  | .hbm, ⟨110, _⟩ => ⟨S1x64, .f32⟩
  | .hbm, ⟨111, _⟩ => ⟨S100000x64, .f32⟩
  | .hbm, ⟨112, _⟩ => ⟨S1x1, .f32⟩
  | .hbm, ⟨113, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x1, .f32⟩
  | .local _ .vmem, ⟨31, _⟩ => ⟨S1x1, .f32⟩
  | .local _ .vmem, ⟨32, _⟩ => ⟨S5000x1, .f32⟩
  | .local _ .vmem, ⟨33, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  dot_S5000x128_S128x64_S5000x64_1_0_0_1_n_n_wf : DotDims.WF S5000x128 S128x64 S5000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v83) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S1600000x1, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S100000x1, .f32⟩
  | 124 => ⟨S1x1, .f32⟩
  | 125 => ⟨S100000x1, .f32⟩
  | 126 => ⟨S100000x1, .f32⟩
  | 127 => ⟨S100000x1, .f32⟩
  | _ => ⟨S100000x128, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | 4 => ⟨S_, .f32⟩
  | 5 => ⟨S100000x1, .f32⟩
  | 6 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_18 : Ref sig .tc := ⟨.hbm, 129, rfl⟩
abbrev main_v99 : Ref sig .tc := ⟨.hbm, 130, rfl⟩
abbrev main_v100 : Ref sig .tc := ⟨.hbm, 131, rfl⟩
abbrev main_cst_19 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  The dense stages of the two-layer graph network as whole-array functions, at the extended reals, for any sizes.

    * `mm a b`: the matrix product `[M, K] × [K, N]`, at `(p, q)` the sum `∑ₖ a(p, k) · b(k, q)`;
    * `combine agg h d b`: the aggregated neighbours plus the self-loop term plus the bias,
      at `(p, q)`: `(agg(p, q) + d(p, 0) · h(p, q)) + b(0, q)` — `d` a column `[M, 1]` (the squared inverse root
      degree of node `p`), `b` a row `[1, N]`; the additions grouped as written;
    * `combineRelu`: the same followed by the maximum with the zero word's value;
    * `linsig h w b`: the logistic function of `mm h w` plus the one bias entry `b(0, 0)`.

  Both programs compute these: one tile of rows at a time on one side, by whole-array operations on the other.
-/
import Idealize.ShloMosaic.PureOps.Ideal.Laws
import Idealize.ShloMosaic.Lib.ValueIdx

noncomputable section

namespace Cert.Spec

open Idealize.ShloMosaic Idealize.ShloMosaic.ValueIdx

variable {M K N : Nat}

/-- The matrix product, entry by entry. -/
def mm (a : FVec Ideal ⟨2, ![M, K]⟩ .f32) (b : FVec Ideal ⟨2, ![K, N]⟩ .f32) : FVec Ideal ⟨2, ![M, N]⟩ .f32 :=
  fun i => ∑ k : Fin K, a (ix2 (i 0) k) * b (ix2 k (i 1))

theorem mm_apply (a : FVec Ideal ⟨2, ![M, K]⟩ .f32) (b : FVec Ideal ⟨2, ![K, N]⟩ .f32) (p : Fin M) (q : Fin N) :
    mm a b (ix2 p q) = ∑ k : Fin K, a (ix2 p k) * b (ix2 k q) := rfl

/-- Aggregated neighbours, plus the node's own row scaled by its column entry, plus the bias row. -/
def combine (agg h : FVec Ideal ⟨2, ![M, N]⟩ .f32) (d : FVec Ideal ⟨2, ![M, 1]⟩ .f32) (b : FVec Ideal ⟨2, ![1, N]⟩ .f32) :
    FVec Ideal ⟨2, ![M, N]⟩ .f32 :=
  fun i => (agg i + d (ix2 (i 0) 0) * h i) + b (ix2 0 (i 1))

theorem combine_apply (agg h : FVec Ideal ⟨2, ![M, N]⟩ .f32) (d : FVec Ideal ⟨2, ![M, 1]⟩ .f32) (b : FVec Ideal ⟨2, ![1, N]⟩ .f32)
    (p : Fin M) (q : Fin N) :
    combine agg h d b (ix2 p q) = (agg (ix2 p q) + d (ix2 p 0) * h (ix2 p q)) + b (ix2 0 q) := rfl

/-- The same, cut off below at the zero word's value. -/
def combineRelu (agg h : FVec Ideal ⟨2, ![M, N]⟩ .f32) (d : FVec Ideal ⟨2, ![M, 1]⟩ .f32) (b : FVec Ideal ⟨2, ![1, N]⟩ .f32) :
    FVec Ideal ⟨2, ![M, N]⟩ .f32 :=
  fun i => max (combine agg h d b i) (Ideal.ofBits .f32 0x00000000#32)

theorem combineRelu_apply (agg h : FVec Ideal ⟨2, ![M, N]⟩ .f32) (d : FVec Ideal ⟨2, ![M, 1]⟩ .f32) (b : FVec Ideal ⟨2, ![1, N]⟩ .f32)
    (p : Fin M) (q : Fin N) :
    combineRelu agg h d b (ix2 p q)
      = max ((agg (ix2 p q) + d (ix2 p 0) * h (ix2 p q)) + b (ix2 0 q)) (Ideal.ofBits .f32 0x00000000#32) := rfl

/-- The logistic function of a one-column product plus its one bias entry. -/
def linsig (h : FVec Ideal ⟨2, ![M, K]⟩ .f32) (w : FVec Ideal ⟨2, ![K, 1]⟩ .f32) (b : FVec Ideal ⟨2, ![1, 1]⟩ .f32) :
    FVec Ideal ⟨2, ![M, 1]⟩ .f32 :=
  fun i => Ideal.logistic (mm h w i + b (ix2 0 0))

theorem linsig_apply (h : FVec Ideal ⟨2, ![M, K]⟩ .f32) (w : FVec Ideal ⟨2, ![K, 1]⟩ .f32) (b : FVec Ideal ⟨2, ![1, 1]⟩ .f32)
    (p : Fin M) (u : Fin 1) :
    linsig h w b (ix2 p u) = Ideal.logistic ((∑ k : Fin K, h (ix2 p k) * w (ix2 k u)) + b (ix2 0 0)) := rfl

end Cert.Spec

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibRows.lean ====
/-
  Rank-2 vectors with a unit axis, read at an element, for any sizes.

    * the broadcast of a row `[1, B]` down the rows to `[A, B]`, at `(p, q)`: the row at `(0, q)`;
    * the broadcast of a single entry `[1, 1]` to a column `[A, 1]`, at `(p, u)`: the entry at `(0, 0)`;
    * the cast of a length-`B` vector to a row `[1, B]`, at `(u, q)`: the vector at `q`.
-/
import Idealize.ShloMosaic.Lib.ValueIdx
import Idealize.ShloMosaic.Lib.Pipeline.Value

noncomputable section

namespace Cert.Lib.Rows

open Idealize.ShloMosaic Idealize.ShloMosaic.ValueIdx

variable {A B : Nat} {α : Type}

/-- A row broadcast down the rows reads, at `(p, q)`, the row at `(0, q)`. -/
theorem rowBroadcast_apply (v : (⟨2, ![1, B]⟩ : Shape).Idx → α) (h : (⟨2, ![1, B]⟩ : Shape).Broadcasts ⟨2, ![A, B]⟩)
    (hB : B ≠ 1) (p : Fin A) (q : Fin B) : broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

/-- A single entry broadcast to a column reads, everywhere, the entry. -/
theorem unitBroadcast_apply (v : (⟨2, ![1, 1]⟩ : Shape).Idx → α) (h : (⟨2, ![1, 1]⟩ : Shape).Broadcasts ⟨2, ![A, 1]⟩)
    (p : Fin A) (u : Fin 1) : broadcastTo ⟨2, ![A, 1]⟩ v h (ix2 p u) = v (ix2 0 0) := by
  refine broadcastTo_apply v h (ix2 p u) (ix2 0 0) fun a => ?_
  match a with
  | ⟨0, _⟩ => exact (if_pos rfl).symm
  | ⟨1, _⟩ => exact (if_pos rfl).symm

/-- A length-`B` vector cast to a row reads, at `(u, q)`, the vector at `q`. -/
theorem rowCast_apply (v : (⟨1, ![B]⟩ : Shape).Idx → α) (h : (⟨1, ![B]⟩ : Shape).ShapeCasts ⟨2, ![1, B]⟩) (u : Fin 1) (q : Fin B) :
    shapeCast ⟨2, ![1, B]⟩ v h (ix2 u q) = v (ix1 q) := by
  refine shapeCast_apply v h (ix2 u q) (ix1 q) ?_
  rw [Shape.rowMajor_val_one, Shape.rowMajor_val_two]
  have hu : u.val = 0 := by omega
  show q.val = u.val * B + q.val
  rw [hu, Nat.zero_mul, Nat.zero_add]

end Cert.Lib.Rows

end
-- ==== Proof.Region0.lean ====
/-
  The first projection, tile by tile: each of the 20 grid points multiplies its 5000 rows of the node features by the
  whole weight matrix into a zero accumulator and writes its 5000 rows of the result back; the tiles fill the array, so the
  array ends holding the matrix product of the two arrays as the region found them.
-/
import proofs.«130188_j48095043781198_1_alg».proof.Proof.Gen.KernelIdeal.Frame
import proofs.«130188_j48095043781198_1_alg».proof.Proof.Spec
import proofs.«130188_j48095043781198_1_alg».proof.Proof.LibRowwise
import proofs.«130188_j48095043781198_1_alg».proof.Proof.LibRows
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The zero offsets, however spelt. -/
theorem zero_offsets : (![0, 0] : Fin 2 → Nat) = fun _ => 0 := funext fun a => by fin_cases a <;> rfl

/-- One tile's product read at a point: the sum over the contracted coordinate of the products of the two blocks'
    entries (the narrowing of both operands is the identity at the extended reals). -/
theorem tile_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  rw [Cert.Lib.Rowwise.eq_plain dot_S5000x128_S128x64_S5000x64_1_0_0_1_n_n rfl rfl rfl rfl rfl rfl]
  exact Cert.Lib.Rowwise.plain_matmul_zero_apply none _ _ p q

/-- The index maps at each of the 20 grid points: the row tile of the node features moves with the
    output's, both in column block 0; the weight matrix is one block; the output's row tile is at most the 19th. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row tiles is some grid point's. -/
theorem index_onto : ∀ r : Fin 20, ∃ t : Fin cfg0.N, win0_2.index t = ![r.val, 0] :=
  (by decide +kernel : ∀ r : Fin 20, ∃ t : Fin grid0.N, win0_2.index t = ![r.val, 0])

/-- What grid point t writes back is its tile of the product of the two arrays as entered: entry (p, q) of the tile
    is the sum over k of the products of the tile's row p of the node features with column q of the weight matrix, and
    row p of tile t is row 5000 t + p of the array. -/
theorem flushed_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := index_facts t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = Cert.Spec.mm (V c main_arg0) (V c main_arg2) (((cfg0.win 2).blk t).view.emb (ix2 p q))
  refine (tile_apply (iblk0 V c 0 t) (iblk0 V c 1 t) p q).trans ?_
  have hp : p.val < 5000 := p.isLt
  have hr : win0_2.index t (0 : Fin 2) * 5000 + p.val < 100000 := by omega
  have h2 : ((cfg0.win 2).blk t).view.emb (ix2 p q)
      = (ix2 (⟨win0_2.index t (0 : Fin 2) * 5000 + p.val, hr⟩ : Fin 100000) q : S100000x64.Idx) := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 64 + 1 * q.val = q.val; omega
  rw [h2, Cert.Spec.mm_apply]
  refine Finset.sum_congr rfl fun k _ => ?_
  have h0 : ((cfg0.win 0).blk t).view.emb (ix2 p k)
      = (ix2 (⟨win0_2.index t (0 : Fin 2) * 5000 + p.val, hr⟩ : Fin 100000) k : S100000x128.Idx) := by
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  have h1 : ((cfg0.win 1).blk t).view.emb (ix2 k q) = (ix2 k q : S128x64.Idx) := by
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  have ha : iblk0 V c 0 t (ix2 p k)
      = V c main_arg0 (ix2 (⟨win0_2.index t (0 : Fin 2) * 5000 + p.val, hr⟩ : Fin 100000) k : S100000x128.Idx) := by
    show V c main_arg0 (((cfg0.win 0).blk t).view.emb (ix2 p k)) = _
    rw [h0]
  have hb : iblk0 V c 1 t (ix2 k q) = V c main_arg2 (ix2 k q : S128x64.Idx) := by
    show V c main_arg2 (((cfg0.win 1).blk t).view.emb (ix2 k q)) = _
    rw [h1]
  rw [ha, hb]

/-- An index of the output array is in grid point t's tile iff each coordinate is in the tile's range on its axis. -/
theorem mem_tile (t : Fin cfg0.N) (i : S100000x64.Idx) :
    i ∈ ((cfg0.win 2).blk t).view.set
      ↔ ∀ a : Fin 2, win0_2.index t a * S5000x64.size a ≤ (i a).val
          ∧ (i a).val < win0_2.index t a * S5000x64.size a + S5000x64.size a := by
  show i ∈ ((View.whole main_v4).slice (win0_2.rect t)).set ↔ _
  rw [View.set_slice_whole, Rect.mem_set_unit]
  exact Iff.rfl

/-- The 20 tiles of 5000 rows fill the array: row r is in the tile of grid point r / 5000. -/
theorem tiles_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- After the region its output array is the matrix product of the two input arrays as entered. -/
theorem final (c : Dev nD) :
    (dat0 (F := Ideal) V c).arrAt 2 cfg0.N = Cert.Spec.mm (V c main_arg0) (V c main_arg2) :=
  (dat0 V c).arrAt_eq_of_cover 2 (Cert.Spec.mm (V c main_arg0) (V c main_arg2)) (fun t _ => flushed_eq V c t) tiles_cover

end Cert.KernelIdeal.Region0

end
-- ==== Proof.Region1.lean ====
/-
  The first layer's combine, tile by tile: each grid point adds to its 5000 rows of the aggregated neighbours the same rows
  of the projection scaled by the node's column entry, then the bias row, and cuts the result off below at zero; the tiles
  fill the array.
-/
import proofs.«130188_j48095043781198_1_alg».proof.Proof.Gen.KernelIdeal.Frame
import proofs.«130188_j48095043781198_1_alg».proof.Proof.Spec
import proofs.«130188_j48095043781198_1_alg».proof.Proof.LibRowwise
import proofs.«130188_j48095043781198_1_alg».proof.Proof.LibRows
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

private theorem zero_offsets : (![0, 0] : Fin 2 → Nat) = fun _ => 0 :=
  funext fun a => match a with | ⟨0, _⟩ => rfl | ⟨1, _⟩ => rfl

/-- The tile's payload at row `p`, lane `q`: the aggregate plus the column entry times the projection, plus the bias,
    cut off below at the zero word's value. -/
private theorem payload_apply (x0 : Vec Ideal S5000x64 .f32) (x2 : Vec Ideal S5000x1 .f32) (x4 : Vec Ideal S5000x64 .f32)
    (x9 : Vec Ideal S1x64 .f32) (p : Fin 5000) (q : Fin 64) :
    k1_pay1 x0 x2 x4 x9 (ix2 p q)
      = max ((x0 (ix2 p q) + x2 (ix2 p 0) * x4 (ix2 p q)) + x9 (ix2 0 q)) (Ideal.ofBits .f32 0x00000000#32) := by
  unfold k1_pay1
  simp only [shapeCast_self]
  rw [maximumf_apply, addf_apply, addf_apply, mulf_apply, broadcast_apply,
    Cert.Lib.Rowwise.columnBroadcast_apply _ _ (by decide), Cert.Lib.Rows.rowBroadcast_apply _ _ (by decide)]
  rfl

/-- The printed index maps over the twenty grid points: the aggregate, projection and column windows sit on the output
    tile's rows, every window's lane block is the first, the bias window is the whole row. -/
private theorem index_facts : ∀ t : Fin cfg1.N,
    win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 19 :=
  (by decide +kernel : ∀ t : Fin grid1.N, _)

/-- Every one of the twenty row tiles is some grid point's. -/
private theorem index_onto : ∀ q : Fin 20, ∃ t : Fin cfg1.N, win1_4.index t = ![q.val, 0] :=
  (by decide +kernel : ∀ q : Fin 20, ∃ t : Fin grid1.N, win1_4.index t = ![q.val, 0])

/-- Row `p`, lane `q` of grid point `t`'s output tile is the array's row `r = 5000 · (tile index) + p`, lane `q`. -/
private theorem out_emb (t : Fin cfg1.N) (p : Fin 5000) (q : Fin 64) (r : Fin 100000)
    (hr : r.val = win1_4.index t (0 : Fin 2) * 5000 + p.val) :
    ((cfg1.win 4).blk t).view.emb (ix2 p q) = ix2 r q := by
  obtain ⟨e0, e1, e2, e3, e4, e5, e6, e7, e8, e9⟩ := index_facts t
  funext a; apply Fin.ext
  match a with
  | ⟨0, _⟩ => show win1_4.index t (0 : Fin 2) * 5000 + 1 * p.val = r.val; omega
  | ⟨1, _⟩ => show win1_4.index t (1 : Fin 2) * 64 + 1 * q.val = q.val; omega

/-- The aggregate's tile at `(p, q)` is the aggregate array at `(r, q)`. -/
private theorem agg_apply (c : Dev nD) (t : Fin cfg1.N) (p : Fin 5000) (q : Fin 64) (r : Fin 100000)
    (hr : r.val = win1_4.index t (0 : Fin 2) * 5000 + p.val) :
    iblk1 V c 0 t (ix2 p q) = V c main_v39 (ix2 r q) := by
  obtain ⟨e0, e1, e2, e3, e4, e5, e6, e7, e8, e9⟩ := index_facts t
  refine congrArg (V c main_v39) (?_ : ((cfg1.win 0).blk t).view.emb (ix2 p q) = ix2 r q)
  funext a; apply Fin.ext
  match a with
  | ⟨0, _⟩ => show win1_0.index t (0 : Fin 2) * 5000 + 1 * p.val = r.val; omega
  | ⟨1, _⟩ => show win1_0.index t (1 : Fin 2) * 64 + 1 * q.val = q.val; omega

/-- The projection's tile at `(p, q)` is the projection array at `(r, q)`. -/
private theorem proj_apply (c : Dev nD) (t : Fin cfg1.N) (p : Fin 5000) (q : Fin 64) (r : Fin 100000)
    (hr : r.val = win1_4.index t (0 : Fin 2) * 5000 + p.val) :
    iblk1 V c 1 t (ix2 p q) = V c main_v4 (ix2 r q) := by
  obtain ⟨e0, e1, e2, e3, e4, e5, e6, e7, e8, e9⟩ := index_facts t
  refine congrArg (V c main_v4) (?_ : ((cfg1.win 1).blk t).view.emb (ix2 p q) = ix2 r q)
  funext a; apply Fin.ext
  match a with
  | ⟨0, _⟩ => show win1_1.index t (0 : Fin 2) * 5000 + 1 * p.val = r.val; omega
  | ⟨1, _⟩ => show win1_1.index t (1 : Fin 2) * 64 + 1 * q.val = q.val; omega

/-- The column's tile at `(p, 0)` is the column array at `(r, 0)`. -/
private theorem col_apply (c : Dev nD) (t : Fin cfg1.N) (p : Fin 5000) (r : Fin 100000)
    (hr : r.val = win1_4.index t (0 : Fin 2) * 5000 + p.val) :
    iblk1 V c 2 t (ix2 p (0 : Fin 1)) = V c main_v41 (ix2 r (0 : Fin 1)) := by
  obtain ⟨e0, e1, e2, e3, e4, e5, e6, e7, e8, e9⟩ := index_facts t
  refine congrArg (V c main_v41) (?_ : ((cfg1.win 2).blk t).view.emb (ix2 p (0 : Fin 1)) = ix2 r (0 : Fin 1))
  funext a; apply Fin.ext
  match a with
  | ⟨0, _⟩ => show win1_2.index t (0 : Fin 2) * 5000 + 1 * p.val = r.val; omega
  | ⟨1, _⟩ => show win1_2.index t (1 : Fin 2) * 1 + 1 * 0 = 0; omega

/-- The bias window is the whole bias row. -/
private theorem bias_apply (c : Dev nD) (t : Fin cfg1.N) (q : Fin 64) :
    iblk1 V c 3 t (ix2 (0 : Fin 1) q) = V c main_v42 (ix2 (0 : Fin 1) q) := by
  obtain ⟨e0, e1, e2, e3, e4, e5, e6, e7, e8, e9⟩ := index_facts t
  refine congrArg (V c main_v42) (?_ : ((cfg1.win 3).blk t).view.emb (ix2 (0 : Fin 1) q) = ix2 (0 : Fin 1) q)
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- The payload of the four tiles at `(p, q)` is `combineRelu` of the four arrays at that element's place in the array. -/
private theorem tile_point (c : Dev nD) (t : Fin cfg1.N) (p : Fin 5000) (q : Fin 64) :
    k1_pay1 (iblk1 V c 0 t) (iblk1 V c 2 t) (iblk1 V c 1 t) (iblk1 V c 3 t) (ix2 p q)
      = Cert.Spec.combineRelu (V c main_v39) (V c main_v4) (V c main_v41) (V c main_v42) (((cfg1.win 4).blk t).view.emb (ix2 p q)) := by
  obtain ⟨e0, e1, e2, e3, e4, e5, e6, e7, e8, e9⟩ := index_facts t
  have hp : p.val < 5000 := p.isLt
  obtain ⟨r, hr⟩ : ∃ r : Fin 100000, r.val = win1_4.index t (0 : Fin 2) * 5000 + p.val :=
    ⟨⟨win1_4.index t (0 : Fin 2) * 5000 + p.val, by omega⟩, rfl⟩
  rw [out_emb t p q r hr, Cert.Spec.combineRelu_apply]
  refine (payload_apply (iblk1 V c 0 t) (iblk1 V c 2 t) (iblk1 V c 1 t) (iblk1 V c 3 t) p q).trans ?_
  rw [agg_apply V c t p q r hr, proj_apply V c t p q r hr, col_apply V c t p r hr, bias_apply V c t q]

/-- The output window is never cut: what it writes back is the whole tile. -/
private theorem uncut (t : Fin cfg1.N) (X : Vec Ideal S5000x64 .f32) :
    (cfg1.win 4).cut (grid1.coords t) X = X := rfl

/-- An array read through the output tile, at an element: the array at the element's place. -/
private theorem read_tile (t : Fin cfg1.N) (G : FVec Ideal S100000x64 .f32) (j : S5000x64.Idx) :
    ((cfg1.win 4).blk t).view.read (Elt Ideal) G j = G (((cfg1.win 4).blk t).view.emb j) := rfl

/-- What grid point `t` writes back is its tile of `combineRelu` of the four arrays as entered. -/
private theorem flushed_eq (c : Dev nD) (t : Fin cfg1.N) :
    (dat1 (F := Ideal) V c).flushed 4 t = ((cfg1.win 4).blk t).view.read (Elt Ideal)
      (Cert.Spec.combineRelu (V c main_v39) (V c main_v4) (V c main_v41) (V c main_v42)) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S5000x1) zero_offsets,
    View.ld_unit_zero (S := S1x64) zero_offsets]
  refine (uncut t _).trans ?_
  funext j
  refine Eq.trans ?_ (read_tile t _ j).symm
  obtain ⟨p, q, rfl⟩ : ∃ (p : Fin 5000) (q : Fin 64), j = ix2 p q := ⟨j 0, j 1, eq_ix2 j⟩
  exact tile_point V c t p q

/-- An array index is in grid point `t`'s tile iff each coordinate is in the tile's range on its axis. -/
private theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v43).slice (win1_4.rect t)).set ↔ _
  rw [View.set_slice_whole, Rect.mem_set_unit]
  exact Iff.rfl

/-- The twenty tiles fill the array: row `r` is in the tile of the grid point whose block index is `r / 5000`. -/
private theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := index_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- After the region its output array is `combineRelu` of the four input arrays as entered. -/
theorem final (c : Dev nD) :
    (dat1 (F := Ideal) V c).arrAt 4 cfg1.N = Cert.Spec.combineRelu (V c main_v39) (V c main_v4) (V c main_v41) (V c main_v42) :=
  (dat1 V c).arrAt_eq_of_cover 4 (Cert.Spec.combineRelu (V c main_v39) (V c main_v4) (V c main_v41) (V c main_v42))
    (fun t _ => flushed_eq V c t) cover

end Cert.KernelIdeal.Region1

end
-- ==== Proof.Region2.lean ====
/-
  The second projection, tile by tile: each grid point multiplies its 5000 rows of the first layer's output by the whole
  second weight matrix into a zero accumulator; the tiles fill the array.
-/
import proofs.«130188_j48095043781198_1_alg».proof.Proof.Gen.KernelIdeal.Frame
import proofs.«130188_j48095043781198_1_alg».proof.Proof.Spec
import proofs.«130188_j48095043781198_1_alg».proof.Proof.LibRowwise
import proofs.«130188_j48095043781198_1_alg».proof.Proof.LibRows
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The zero offsets, however spelt. -/
theorem zero_offsets : (![0, 0] : Fin 2 → Nat) = fun _ => 0 := funext fun a => by fin_cases a <;> rfl

/-- One tile's product read at a point: the sum over the contracted coordinate of the products of the two blocks'
    entries (the cast of the left block to its own shape and the narrowing of both operands are the identity at the
    extended reals). -/
theorem tile_apply (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  unfold k2_pay1
  rw [shapeCast_self, Cert.Lib.Rowwise.eq_plain dot_S5000x64_S64x64_S5000x64_1_0_0_1_n_n rfl rfl rfl rfl rfl rfl]
  exact Cert.Lib.Rowwise.plain_matmul_zero_apply none _ _ p q

/-- The index maps at each of the 20 grid points: the row tile of the first layer's output moves with
    the output's, both in column block 0; the weight matrix is one block; the output's row tile is at most the 19th. -/
theorem index_facts : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every one of the 20 row tiles is some grid point's. -/
theorem index_onto : ∀ r : Fin 20, ∃ t : Fin cfg2.N, win2_2.index t = ![r.val, 0] :=
  (by decide +kernel : ∀ r : Fin 20, ∃ t : Fin grid2.N, win2_2.index t = ![r.val, 0])

/-- What grid point t writes back is its tile of the product of the two arrays as entered: entry (p, q) of the tile
    is the sum over k of the products of the tile's row p of the left array with column q of the weight matrix, and
    row p of tile t is row 5000 t + p of the array. -/
theorem flushed_eq (c : Dev nD) (t : Fin cfg2.N) :
    (dat2 (F := Ideal) V c).flushed 2 t
      = ((cfg2.win 2).blk t).view.read (Elt Ideal) (Cert.Spec.mm (V c main_v43) (V c main_arg4)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  obtain ⟨e0, e1, e2, e3, e4, e5⟩ := index_facts t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = Cert.Spec.mm (V c main_v43) (V c main_arg4) (((cfg2.win 2).blk t).view.emb (ix2 p q))
  refine (tile_apply (iblk2 V c 0 t) (iblk2 V c 1 t) p q).trans ?_
  have hp : p.val < 5000 := p.isLt
  have hr : win2_2.index t (0 : Fin 2) * 5000 + p.val < 100000 := by omega
  have h2 : ((cfg2.win 2).blk t).view.emb (ix2 p q)
      = (ix2 (⟨win2_2.index t (0 : Fin 2) * 5000 + p.val, hr⟩ : Fin 100000) q : S100000x64.Idx) := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 64 + 1 * q.val = q.val; omega
  rw [h2, Cert.Spec.mm_apply]
  refine Finset.sum_congr rfl fun k _ => ?_
  have h0 : ((cfg2.win 0).blk t).view.emb (ix2 p k)
      = (ix2 (⟨win2_2.index t (0 : Fin 2) * 5000 + p.val, hr⟩ : Fin 100000) k : S100000x64.Idx) := by
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 64 + 1 * k.val = k.val; omega
  have h1 : ((cfg2.win 1).blk t).view.emb (ix2 k q) = (ix2 k q : S64x64.Idx) := by
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  have ha : iblk2 V c 0 t (ix2 p k)
      = V c main_v43 (ix2 (⟨win2_2.index t (0 : Fin 2) * 5000 + p.val, hr⟩ : Fin 100000) k : S100000x64.Idx) := by
    show V c main_v43 (((cfg2.win 0).blk t).view.emb (ix2 p k)) = _
    rw [h0]
  have hb : iblk2 V c 1 t (ix2 k q) = V c main_arg4 (ix2 k q : S64x64.Idx) := by
    show V c main_arg4 (((cfg2.win 1).blk t).view.emb (ix2 k q)) = _
    rw [h1]
  rw [ha, hb]

/-- An index of the output array is in grid point t's tile iff each coordinate is in the tile's range on its axis. -/
theorem mem_tile (t : Fin cfg2.N) (i : S100000x64.Idx) :
    i ∈ ((cfg2.win 2).blk t).view.set
      ↔ ∀ a : Fin 2, win2_2.index t a * S5000x64.size a ≤ (i a).val
          ∧ (i a).val < win2_2.index t a * S5000x64.size a + S5000x64.size a := by
  show i ∈ ((View.whole main_v44).slice (win2_2.rect t)).set ↔ _
  rw [View.set_slice_whole, Rect.mem_set_unit]
  exact Iff.rfl

/-- The 20 tiles of 5000 rows fill the array: row r is in the tile of grid point r / 5000. -/
theorem tiles_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_tile]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- After the region its output array is the matrix product of the two input arrays as entered. -/
theorem final (c : Dev nD) :
    (dat2 (F := Ideal) V c).arrAt 2 cfg2.N = Cert.Spec.mm (V c main_v43) (V c main_arg4) :=
  (dat2 V c).arrAt_eq_of_cover 2 (Cert.Spec.mm (V c main_v43) (V c main_arg4)) (fun t _ => flushed_eq V c t) tiles_cover

end Cert.KernelIdeal.Region2

end
-- ==== Proof.Region3.lean ====
/-
  The second layer's combine, tile by tile, with no cut-off: aggregated neighbours plus the scaled own row plus the bias row;
  the tiles fill the array.
-/
import proofs.«130188_j48095043781198_1_alg».proof.Proof.Gen.KernelIdeal.Frame
import proofs.«130188_j48095043781198_1_alg».proof.Proof.Spec
import proofs.«130188_j48095043781198_1_alg».proof.Proof.LibRowwise
import proofs.«130188_j48095043781198_1_alg».proof.Proof.LibRows
import Idealize.ShloMosaic.Lib.Pipeline.Value
import Idealize.ShloMosaic.Lib.ValueIdx
import Idealize.ShloMosaic.PureOps.Ideal.Laws

set_option maxRecDepth 16384

noncomputable section

namespace Cert.KernelIdeal.Region3

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

private theorem zero_offsets : (![0, 0] : Fin 2 → Nat) = fun _ => 0 :=
  funext fun a => match a with | ⟨0, _⟩ => rfl | ⟨1, _⟩ => rfl

/-- The tile's payload at row `p`, lane `q`: the aggregate plus the column entry times the projection, plus the bias. -/
private theorem payload_apply (x0 : Vec Ideal S5000x64 .f32) (x2 : Vec Ideal S5000x1 .f32) (x4 : Vec Ideal S5000x64 .f32)
    (x9 : Vec Ideal S1x64 .f32) (p : Fin 5000) (q : Fin 64) :
    k3_pay1 x0 x2 x4 x9 (ix2 p q) = (x0 (ix2 p q) + x2 (ix2 p 0) * x4 (ix2 p q)) + x9 (ix2 0 q) := by
  unfold k3_pay1
  simp only [shapeCast_self]
  rw [addf_apply, addf_apply, mulf_apply,
    Cert.Lib.Rowwise.columnBroadcast_apply _ _ (by decide), Cert.Lib.Rows.rowBroadcast_apply _ _ (by decide)]

/-- The printed index maps over the twenty grid points: the aggregate, projection and column windows sit on the output
    tile's rows, every window's lane block is the first, the bias window is the whole row. -/
private theorem index_facts : ∀ t : Fin cfg3.N,
    win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 19 :=
  (by decide +kernel : ∀ t : Fin grid3.N, _)

/-- Every one of the twenty row tiles is some grid point's. -/
private theorem index_onto : ∀ q : Fin 20, ∃ t : Fin cfg3.N, win3_4.index t = ![q.val, 0] :=
  (by decide +kernel : ∀ q : Fin 20, ∃ t : Fin grid3.N, win3_4.index t = ![q.val, 0])

/-- Row `p`, lane `q` of grid point `t`'s output tile is the array's row `r = 5000 · (tile index) + p`, lane `q`. -/
private theorem out_emb (t : Fin cfg3.N) (p : Fin 5000) (q : Fin 64) (r : Fin 100000)
    (hr : r.val = win3_4.index t (0 : Fin 2) * 5000 + p.val) :
    ((cfg3.win 4).blk t).view.emb (ix2 p q) = ix2 r q := by
  obtain ⟨e0, e1, e2, e3, e4, e5, e6, e7, e8, e9⟩ := index_facts t
  funext a; apply Fin.ext
  match a with
  | ⟨0, _⟩ => show win3_4.index t (0 : Fin 2) * 5000 + 1 * p.val = r.val; omega
  | ⟨1, _⟩ => show win3_4.index t (1 : Fin 2) * 64 + 1 * q.val = q.val; omega

/-- The aggregate's tile at `(p, q)` is the aggregate array at `(r, q)`. -/
private theorem agg_apply (c : Dev nD) (t : Fin cfg3.N) (p : Fin 5000) (q : Fin 64) (r : Fin 100000)
    (hr : r.val = win3_4.index t (0 : Fin 2) * 5000 + p.val) :
    iblk3 V c 0 t (ix2 p q) = V c main_v79 (ix2 r q) := by
  obtain ⟨e0, e1, e2, e3, e4, e5, e6, e7, e8, e9⟩ := index_facts t
  refine congrArg (V c main_v79) (?_ : ((cfg3.win 0).blk t).view.emb (ix2 p q) = ix2 r q)
  funext a; apply Fin.ext
  match a with
  | ⟨0, _⟩ => show win3_0.index t (0 : Fin 2) * 5000 + 1 * p.val = r.val; omega
  | ⟨1, _⟩ => show win3_0.index t (1 : Fin 2) * 64 + 1 * q.val = q.val; omega

/-- The projection's tile at `(p, q)` is the projection array at `(r, q)`. -/
private theorem proj_apply (c : Dev nD) (t : Fin cfg3.N) (p : Fin 5000) (q : Fin 64) (r : Fin 100000)
    (hr : r.val = win3_4.index t (0 : Fin 2) * 5000 + p.val) :
    iblk3 V c 1 t (ix2 p q) = V c main_v44 (ix2 r q) := by
  obtain ⟨e0, e1, e2, e3, e4, e5, e6, e7, e8, e9⟩ := index_facts t
  refine congrArg (V c main_v44) (?_ : ((cfg3.win 1).blk t).view.emb (ix2 p q) = ix2 r q)
  funext a; apply Fin.ext
  match a with
  | ⟨0, _⟩ => show win3_1.index t (0 : Fin 2) * 5000 + 1 * p.val = r.val; omega
  | ⟨1, _⟩ => show win3_1.index t (1 : Fin 2) * 64 + 1 * q.val = q.val; omega

/-- The column's tile at `(p, 0)` is the column array at `(r, 0)`. -/
private theorem col_apply (c : Dev nD) (t : Fin cfg3.N) (p : Fin 5000) (r : Fin 100000)
    (hr : r.val = win3_4.index t (0 : Fin 2) * 5000 + p.val) :
    iblk3 V c 2 t (ix2 p (0 : Fin 1)) = V c main_v81 (ix2 r (0 : Fin 1)) := by
  obtain ⟨e0, e1, e2, e3, e4, e5, e6, e7, e8, e9⟩ := index_facts t
  refine congrArg (V c main_v81) (?_ : ((cfg3.win 2).blk t).view.emb (ix2 p (0 : Fin 1)) = ix2 r (0 : Fin 1))
  funext a; apply Fin.ext
  match a with
  | ⟨0, _⟩ => show win3_2.index t (0 : Fin 2) * 5000 + 1 * p.val = r.val; omega
  | ⟨1, _⟩ => show win3_2.index t (1 : Fin 2) * 1 + 1 * 0 = 0; omega

/-- The bias window is the whole bias row. -/
private theorem bias_apply (c : Dev nD) (t : Fin cfg3.N) (q : Fin 64) :
    iblk3 V c 3 t (ix2 (0 : Fin 1) q) = V c main_v82 (ix2 (0 : Fin 1) q) := by
  obtain ⟨e0, e1, e2, e3, e4, e5, e6, e7, e8, e9⟩ := index_facts t
  refine congrArg (V c main_v82) (?_ : ((cfg3.win 3).blk t).view.emb (ix2 (0 : Fin 1) q) = ix2 (0 : Fin 1) q)
  funext a; apply Fin.ext
  match a with
  | ⟨0, _⟩ => show win3_3.index t (0 : Fin 2) * 1 + 1 * 0 = 0; omega
  | ⟨1, _⟩ => show win3_3.index t (1 : Fin 2) * 64 + 1 * q.val = q.val; omega

/-- The payload of the four tiles at `(p, q)` is `combine` of the four arrays at that element's place in the array. -/
private theorem tile_point (c : Dev nD) (t : Fin cfg3.N) (p : Fin 5000) (q : Fin 64) :
    k3_pay1 (iblk3 V c 0 t) (iblk3 V c 2 t) (iblk3 V c 1 t) (iblk3 V c 3 t) (ix2 p q)
      = Cert.Spec.combine (V c main_v79) (V c main_v44) (V c main_v81) (V c main_v82) (((cfg3.win 4).blk t).view.emb (ix2 p q)) := by
  obtain ⟨e0, e1, e2, e3, e4, e5, e6, e7, e8, e9⟩ := index_facts t
  have hp : p.val < 5000 := p.isLt
  obtain ⟨r, hr⟩ : ∃ r : Fin 100000, r.val = win3_4.index t (0 : Fin 2) * 5000 + p.val :=
    ⟨⟨win3_4.index t (0 : Fin 2) * 5000 + p.val, by omega⟩, rfl⟩
  rw [out_emb t p q r hr, Cert.Spec.combine_apply]
  refine (payload_apply (iblk3 V c 0 t) (iblk3 V c 2 t) (iblk3 V c 1 t) (iblk3 V c 3 t) p q).trans ?_
  rw [agg_apply V c t p q r hr, proj_apply V c t p q r hr, col_apply V c t p r hr, bias_apply V c t q]

/-- The output window is never cut: what it writes back is the whole tile. -/
private theorem uncut (t : Fin cfg3.N) (X : Vec Ideal S5000x64 .f32) :
    (cfg3.win 4).cut (grid3.coords t) X = X := rfl

/-- An array read through the output tile, at an element: the array at the element's place. -/
private theorem read_tile (t : Fin cfg3.N) (G : FVec Ideal S100000x64 .f32) (j : S5000x64.Idx) :
    ((cfg3.win 4).blk t).view.read (Elt Ideal) G j = G (((cfg3.win 4).blk t).view.emb j) := rfl

/-- What grid point `t` writes back is its tile of `combine` of the four arrays as entered. -/
private theorem flushed_eq (c : Dev nD) (t : Fin cfg3.N) :
    (dat3 (F := Ideal) V c).flushed 4 t = ((cfg3.win 4).blk t).view.read (Elt Ideal)
      (Cert.Spec.combine (V c main_v79) (V c main_v44) (V c main_v81) (V c main_v82)) := by
  show (cfg3.win 4).cut (grid3.coords t) ((dat3 V c).after 4 t) = _
  rw [after3_4]
  unfold out3_4
  rw [View.canon_unit_zero zero_offsets]
  simp only [View.ld_unit_zero (S := S5000x64) zero_offsets, View.ld_unit_zero (S := S5000x1) zero_offsets,
    View.ld_unit_zero (S := S1x64) zero_offsets]
  refine (uncut t _).trans ?_
  funext j
  refine Eq.trans ?_ (read_tile t _ j).symm
  obtain ⟨p, q, rfl⟩ : ∃ (p : Fin 5000) (q : Fin 64), j = ix2 p q := ⟨j 0, j 1, eq_ix2 j⟩
  exact tile_point V c t p q

/-- An array index is in grid point `t`'s tile iff each coordinate is in the tile's range on its axis. -/
private theorem mem_blk (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v83).slice (win3_4.rect t)).set ↔ _
  rw [View.set_slice_whole, Rect.mem_set_unit]
  exact Iff.rfl

/-- The twenty tiles fill the array: row `r` is in the tile of the grid point whose block index is `r / 5000`. -/
private theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := index_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 64 ≤ (i 1).val ∧ (i 1).val < win3_4.index t (1 : Fin 2) * 64 + 64
    omega

/-- After the region its output array is `combine` of the four input arrays as entered. -/
theorem final (c : Dev nD) :
    (dat3 (F := Ideal) V c).arrAt 4 cfg3.N = Cert.Spec.combine (V c main_v79) (V c main_v44) (V c main_v81) (V c main_v82) :=
  (dat3 V c).arrAt_eq_of_cover 4 (Cert.Spec.combine (V c main_v79) (V c main_v44) (V c main_v81) (V c main_v82))
    (fun t _ => flushed_eq V c t) cover

end Cert.KernelIdeal.Region3

end
-- ==== Proof.Region4.lean ====
/-
  The read-out, tile by tile: each grid point multiplies its 5000 rows by the one-column weight into a zero accumulator, adds
  the one bias entry and applies the logistic function; the tiles fill the one-column array.
-/
import proofs.«130188_j48095043781198_1_alg».proof.Proof.Gen.KernelIdeal.Frame
import proofs.«130188_j48095043781198_1_alg».proof.Proof.Spec
import proofs.«130188_j48095043781198_1_alg».proof.Proof.LibRowwise
import proofs.«130188_j48095043781198_1_alg».proof.Proof.LibRows
import Idealize.ShloMosaic.Lib.Pipeline.Value
import Idealize.ShloMosaic.Lib.ValueIdx
import Idealize.ShloMosaic.PureOps.Ideal.Laws

set_option maxRecDepth 16384

noncomputable section

namespace Cert.KernelIdeal.Region4

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-! ## One tile's result, entry by entry -/

/-- The two spellings of the zero offset of a rank-2 rectangle. -/
theorem zero_offset : (![0, 0] : Fin 2 → Nat) = fun _ => 0 := funext fun a => by fin_cases a <;> rfl

/-- The product's dimension numbers contract the left operand's lanes with the right operand's rows and have no
    batch axes: the plain product `[5000, 64] × [64, 1]`. -/
theorem dims_plain : dot_S5000x64_S64x1_S5000x1_1_0_0_1_n_n = DotDims.plain 5000 64 1 :=
  Cert.Lib.Rowwise.eq_plain _ rfl rfl rfl rfl rfl rfl

/-- One tile's result at row `p`: the logistic function of the row's product with the weight column plus the bias
    entry. -/
theorem tile_apply (x0 : Vec Ideal S5000x64 .f32) (x1 : Vec Ideal S64x1 .f32) (x2 : Vec Ideal S1x1 .f32)
    (p : Fin 5000) (u : Fin 1) :
    k4_pay1 x0 x1 x2 (ix2 p u)
      = Ideal.logistic ((∑ k : Fin 64, x0 (ix2 p k) * x1 (ix2 k u)) + x2 (ix2 0 0)) := by
  unfold k4_pay1
  show Ideal.logistic (FloatOps.matmul (F := Ideal) dot_S5000x64_S64x1_S5000x1_1_0_0_1_n_n none
      (truncf .bf16 (shapeCast S5000x64 x0 shapeCasts_S5000x64_S5000x64) bitsLt_bf16_f32)
      (truncf .bf16 x1 bitsLt_bf16_f32) (constant (F := Ideal) S5000x1 .f32 0x00000000#32) (ix2 p u)
    + broadcastTo S5000x1 (shapeCast S1x1 x2 shapeCasts_S1x1_S1x1) broadcasts_S1x1_S5000x1 (ix2 p u)) = _
  rw [shapeCast_self, shapeCast_self, dims_plain, Cert.Lib.Rowwise.plain_matmul_zero_apply,
    Cert.Lib.Rows.unitBroadcast_apply]
  rfl

/-! ## Where each tile sits -/

/-- The index maps over the 20 grid points: the row tiles of the input and of the output are both tile `t`, their
    lane tile the only one; the weight column and the bias entry are whole at every point. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Every one of the 20 row tiles is some grid point's. -/
theorem index_onto : ∀ q : Fin 20, ∃ t : Fin cfg4.N, win4_3.index t = ![q.val, 0] :=
  (by decide +kernel : ∀ q : Fin 20, ∃ t : Fin grid4.N, win4_3.index t = ![q.val, 0])

/-! ## What one grid point writes back -/

/-- What grid point `t` writes back is tile `t` of `linsig` of the three input arrays as entered. -/
theorem flushed_eq (c : Dev nD) (t : Fin cfg4.N) :
    (dat4 (F := Ideal) V c).flushed 3 t
      = ((cfg4.win 3).blk t).view.read (Elt Ideal)
          (Cert.Spec.linsig (V c main_v83) (V c main_arg6) (V c main_v84)) := by
  show (cfg4.win 3).cut (grid4.coords t) ((dat4 V c).after 3 t) = _
  rw [after4_3]
  unfold out4_3
  rw [View.canon_unit_zero zero_offset]
  simp only [View.ld_unit_zero (S := S5000x64) zero_offset, View.ld_unit_zero (S := S64x1) zero_offset,
    View.ld_unit_zero (S := S1x1) zero_offset]
  obtain ⟨e00, e01, e10, e11, e20, e21, e30, e31⟩ := index_facts t
  have ht : t.val < 20 := t.isLt
  funext j
  obtain ⟨p, u, rfl⟩ : ∃ (p : Fin 5000) (u : Fin 1), j = ix2 p u := ⟨j 0, j 1, eq_ix2 j⟩
  have hp : t.val * 5000 + p.val < 100000 := by omega
  show k4_pay1 (iblk4 V c 0 t) (iblk4 V c 1 t) (iblk4 V c 2 t) (ix2 p u)
    = Cert.Spec.linsig (V c main_v83) (V c main_arg6) (V c main_v84) (((cfg4.win 3).blk t).view.emb (ix2 p u))
  -- row `p` of tile `t` is row `5000 t + p` of the array
  have h3 : ((cfg4.win 3).blk t).view.emb (ix2 p u) = ix2 (⟨t.val * 5000 + p.val, hp⟩ : Fin 100000) u := by
    funext a; apply Fin.ext
    match a with
    | ⟨0, _⟩ => show win4_3.index t (0 : Fin 2) * 5000 + 1 * p.val = t.val * 5000 + p.val; omega
    | ⟨1, _⟩ => show win4_3.index t (1 : Fin 2) * 1 + 1 * u.val = u.val; omega
  have h0 : ∀ k : Fin 64, iblk4 V c 0 t (ix2 p k) = V c main_v83 (ix2 (⟨t.val * 5000 + p.val, hp⟩ : Fin 100000) k) := by
    intro k
    show V c main_v83 (((cfg4.win 0).blk t).view.emb (ix2 p k)) = _
    refine congrArg (V c main_v83) (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * k.val = k.val; omega
  have h1 : ∀ k : Fin 64, iblk4 V c 1 t (ix2 k u) = V c main_arg6 (ix2 k u) := by
    intro k
    show V c main_arg6 (((cfg4.win 1).blk t).view.emb (ix2 k u)) = _
    refine congrArg (V c main_arg6) (funext fun a => Fin.ext ?_)
    match a with
    | ⟨0, _⟩ => show win4_1.index t (0 : Fin 2) * 64 + 1 * k.val = k.val; omega
    | ⟨1, _⟩ => show win4_1.index t (1 : Fin 2) * 1 + 1 * u.val = u.val; omega
  have h2 : iblk4 V c 2 t (ix2 0 0) = V c main_v84 (ix2 0 0) := by
    show V c main_v84 (((cfg4.win 2).blk t).view.emb (ix2 0 0)) = _
    refine congrArg (V c main_v84) (funext fun a => Fin.ext ?_)
    match a with
    | ⟨0, _⟩ => show win4_2.index t (0 : Fin 2) * 1 + 1 * 0 = 0; omega
    | ⟨1, _⟩ => show win4_2.index t (1 : Fin 2) * 1 + 1 * 0 = 0; omega
  rw [tile_apply, h3, Cert.Spec.linsig_apply, h2]
  refine congrArg (fun s => Ideal.logistic (s + V c main_v84 (ix2 0 0))) (Finset.sum_congr rfl fun k _ => ?_)
  rw [h0 k, h1 k]

/-! ## The tiles fill the array -/

/-- An index of the output array is in grid point `t`'s tile iff each coordinate is in the tile's range on its axis. -/
theorem mem_blk (t : Fin cfg4.N) (i : S100000x1.Idx) :
    i ∈ ((cfg4.win 3).blk t).view.set
      ↔ ∀ a : Fin 2, win4_3.index t a * S5000x1.size a ≤ (i a).val
          ∧ (i a).val < win4_3.index t a * S5000x1.size a + S5000x1.size a := by
  show i ∈ ((View.whole main_v85).slice (win4_3.rect t)).set ↔ _
  rw [View.set_slice_whole, Rect.mem_set_unit]
  exact Iff.rfl

/-- Row `r` of the output array is in the tile of the grid point whose row tile is `r / 5000`: the 20 tiles of
    5000 rows fill the 100000 rows exactly. -/
theorem cover (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  obtain ⟨t, ht⟩ := index_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 1 ≤ (i 1).val ∧ (i 1).val < win4_3.index t (1 : Fin 2) * 1 + 1
    omega

/-- After the region its output array is `linsig` of the three input arrays as entered. -/
theorem final (c : Dev nD) :
    (dat4 (F := Ideal) V c).arrAt 3 cfg4.N = Cert.Spec.linsig (V c main_v83) (V c main_arg6) (V c main_v84) := by
  exact (dat4 V c).arrAt_eq_of_cover 3 (Cert.Spec.linsig (V c main_v83) (V c main_arg6) (V c main_v84))
    (fun t _ => flushed_eq V c t) cover

end Cert.KernelIdeal.Region4

end
-- ==== Proof.RefStages.lean ====
/-
  The reference's dense stages are the same whole-array functions: its `dot_general`s are matrix products, its self-loop
  and bias additions and its maximum with zero are `combine` / `combineRelu`, and its negate–exponential–add–divide is the
  logistic function of the read-out (the same function on every extended real).
-/
import proofs.«130188_j48095043781198_1_alg».proof.Proof.Gen.ReferenceIdeal.Read
import proofs.«130188_j48095043781198_1_alg».proof.Proof.Spec
import proofs.«130188_j48095043781198_1_alg».proof.Proof.LibRowwise
import proofs.«130188_j48095043781198_1_alg».proof.Proof.LibRows
import Idealize.ShloMosaic.Lib.Pipeline.Value
import Idealize.ShloMosaic.Lib.ValueIdx
import Idealize.ShloMosaic.PureOps.Ideal.Laws

noncomputable section

namespace Cert.ReferenceIdeal.RefSpec

open Idealize.ShloMosaic Idealize.ShloMosaic.TcCoe Idealize.SL.Sem Idealize.ShloMosaic.ValueIdx
open Cert.ReferenceIdeal Cert.ReferenceIdeal.Read

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x1, .f32⟩ : BufTy).Contents (Elt Ideal)) (x7 : (⟨S1, .f32⟩ : BufTy).Contents (Elt Ideal))

/-- The word of `1.0` at `f32` denotes the extended real one. -/
private theorem ofBits_one_f32 : Ideal.ofBits .f32 0x3F800000#32 = (1 : EReal) := by
  simp [Ideal.ofBits, Ideal.ieee, -EReal.coe_mul]; norm_num

/-- The first projection is the matrix product of the features and the first weights. -/
theorem v4_eq : val_main_v4 (F := Ideal) x0 x2 = Cert.Spec.mm x0 x2 := by
  funext i
  obtain ⟨p, q, rfl⟩ : ∃ (p : Fin 100000) (q : Fin 64), i = ix2 p q := ⟨i 0, i 1, eq_ix2 i⟩
  rw [val_main_v4_apply, Cert.Spec.mm_apply]
  refine Finset.sum_congr rfl fun k _ => ?_
  have el : lidx_main_v4 (ix2 p q) k = ix2 p k :=
    funext fun a => Fin.ext (by match a with | ⟨0, _⟩ => rfl | ⟨1, _⟩ => rfl)
  have er : ridx_main_v4 (ix2 p q) k = ix2 k q :=
    funext fun a => Fin.ext (by match a with | ⟨0, _⟩ => rfl | ⟨1, _⟩ => rfl)
  rw [el, er]

/-- The first layer's output is `combineRelu` of the aggregate, the projection, the degree column and the bias row. -/
theorem v48_eq : val_main_v48 (F := Ideal) x0 x1 x2 x3
    = Cert.Spec.combineRelu (val_main_v39 (F := Ideal) x0 x1 x2) (val_main_v4 (F := Ideal) x0 x2) (val_main_v41 (F := Ideal) x1) (val_main_v45 (F := Ideal) x3) := by
  funext i
  obtain ⟨p, q, rfl⟩ : ∃ (p : Fin 100000) (q : Fin 64), i = ix2 p q := ⟨i 0, i 1, eq_ix2 i⟩
  rw [val_main_v48_apply, val_main_v47_apply, val_main_v44_apply, val_main_v43_apply, val_main_v42_apply,
    val_main_v46_apply, val_main_call0_v0_apply, val_main_call0_cst_apply, Cert.Spec.combineRelu_apply]
  have e1 : idx_main_v42 (ix2 p q) = ix2 p 0 :=
    funext fun a => Fin.ext (by match a with | ⟨0, _⟩ => rfl | ⟨1, _⟩ => rfl)
  have e2 : idx_main_v46 (ix2 p q) = ix2 0 q :=
    funext fun a => Fin.ext (by match a with | ⟨0, _⟩ => rfl | ⟨1, _⟩ => rfl)
  rw [e1, e2]
  generalize val_main_v39 (F := Ideal) x0 x1 x2 = A
  generalize val_main_v4 (F := Ideal) x0 x2 = H
  generalize val_main_v41 (F := Ideal) x1 = D
  generalize val_main_v45 (F := Ideal) x3 = B
  rfl

/-- The second projection is the matrix product of the first layer's output and the second weights. -/
theorem v49_eq : val_main_v49 (F := Ideal) x0 x1 x2 x3 x4 = Cert.Spec.mm (val_main_v48 (F := Ideal) x0 x1 x2 x3) x4 := by
  funext i
  obtain ⟨p, q, rfl⟩ : ∃ (p : Fin 100000) (q : Fin 64), i = ix2 p q := ⟨i 0, i 1, eq_ix2 i⟩
  rw [val_main_v49_apply, Cert.Spec.mm_apply]
  refine Finset.sum_congr rfl fun k _ => ?_
  have el : lidx_main_v49 (ix2 p q) k = ix2 p k :=
    funext fun a => Fin.ext (by match a with | ⟨0, _⟩ => rfl | ⟨1, _⟩ => rfl)
  have er : ridx_main_v49 (ix2 p q) k = ix2 k q :=
    funext fun a => Fin.ext (by match a with | ⟨0, _⟩ => rfl | ⟨1, _⟩ => rfl)
  rw [el, er]

/-- The second layer's output is `combine` of its aggregate, its projection, the degree column and its bias row. -/
theorem v92_eq : val_main_v92 (F := Ideal) x0 x1 x2 x3 x4 x5
    = Cert.Spec.combine (val_main_v84 (F := Ideal) x0 x1 x2 x3 x4) (val_main_v49 (F := Ideal) x0 x1 x2 x3 x4) (val_main_v86 (F := Ideal) x1) (val_main_v90 (F := Ideal) x5) := by
  funext i
  obtain ⟨p, q, rfl⟩ : ∃ (p : Fin 100000) (q : Fin 64), i = ix2 p q := ⟨i 0, i 1, eq_ix2 i⟩
  rw [val_main_v92_apply, val_main_v89_apply, val_main_v88_apply, val_main_v87_apply, val_main_v91_apply,
    Cert.Spec.combine_apply]
  have e1 : idx_main_v87 (ix2 p q) = ix2 p 0 :=
    funext fun a => Fin.ext (by match a with | ⟨0, _⟩ => rfl | ⟨1, _⟩ => rfl)
  have e2 : idx_main_v91 (ix2 p q) = ix2 0 q :=
    funext fun a => Fin.ext (by match a with | ⟨0, _⟩ => rfl | ⟨1, _⟩ => rfl)
  rw [e1, e2]
  generalize val_main_v84 (F := Ideal) x0 x1 x2 x3 x4 = A
  generalize val_main_v49 (F := Ideal) x0 x1 x2 x3 x4 = H
  generalize val_main_v86 (F := Ideal) x1 = D
  generalize val_main_v90 (F := Ideal) x5 = B
  rfl

/-- The result is `linsig` of the second layer's output, the read-out weights and the bias entry. -/
theorem v102_eq : val_main_v102 (F := Ideal) x0 x1 x2 x3 x4 x5 x6 x7
    = Cert.Spec.linsig (val_main_v92 (F := Ideal) x0 x1 x2 x3 x4 x5) x6 (val_main_v94 (F := Ideal) x7) := by
  funext i
  obtain ⟨p, u, rfl⟩ : ∃ (p : Fin 100000) (u : Fin 1), i = ix2 p u := ⟨i 0, i 1, eq_ix2 i⟩
  rw [val_main_v102_apply, val_main_v101_apply, val_main_cst_19_apply, val_main_v100_apply, val_main_v99_apply,
    val_main_cst_18_apply, val_main_v98_apply, val_main_v97_apply, val_main_v96_apply, val_main_v93_apply,
    val_main_v95_apply, Cert.Spec.linsig_apply]
  have e1 : idx_main_v95 (ix2 p u) = ix2 0 0 :=
    funext fun a => Fin.ext (by match a with | ⟨0, _⟩ => rfl | ⟨1, _⟩ => rfl)
  have hs : (∑ k : Fin 64, val_main_v92 (F := Ideal) x0 x1 x2 x3 x4 x5 (lidx_main_v93 (ix2 p u) k) * x6 (ridx_main_v93 (ix2 p u) k))
      = ∑ k : Fin 64, val_main_v92 (F := Ideal) x0 x1 x2 x3 x4 x5 (ix2 p k) * x6 (ix2 k u) := by
    refine Finset.sum_congr rfl fun k _ => ?_
    have el : lidx_main_v93 (ix2 p u) k = ix2 p k :=
      funext fun a => Fin.ext (by match a with | ⟨0, _⟩ => rfl | ⟨1, _⟩ => rfl)
    have er : ridx_main_v93 (ix2 p u) k = ix2 k u :=
      funext fun a => Fin.ext (by match a with | ⟨0, _⟩ => rfl | ⟨1, _⟩ => rfl)
    rw [el, er]
  rw [e1, hs]
  generalize (∑ k : Fin 64, val_main_v92 (F := Ideal) x0 x1 x2 x3 x4 x5 (ix2 p k) * x6 (ix2 k u)) = s
  generalize val_main_v94 (F := Ideal) x7 (ix2 0 0) = b
  rw [Ideal.ofBits_def, ofBits_one_f32]
  rfl

end Cert.ReferenceIdeal.RefSpec

end
-- ==== Proof.HostStages.lean ====
/-
  The host stretches of the tiled program compute the reference's stages. Between the tiled regions the program runs the
  very operations the reference runs — the edge list split into sources and targets, the in-degrees by a scatter-add of
  ones, their inverse square roots gathered at both ends of every edge, the projected rows gathered at the sources, scaled
  and scatter-added at the targets, the squared inverse root degree as a column — on the same inputs, so each buffer a
  stretch writes holds the reference's stage of that name. The bias vectors are cast to rows where the reference broadcasts
  them into rows: the same row.
-/
import proofs.«130188_j48095043781198_1_alg».proof.Proof.Gen.KernelIdeal.Launch
import proofs.«130188_j48095043781198_1_alg».proof.Proof.Gen.ReferenceIdeal.Read
import proofs.«130188_j48095043781198_1_alg».proof.Proof.LibRows
import Idealize.ShloMosaic.Lib.StableHlo.Run
import Idealize.ShloMosaic.Lib.Pipeline.Value
import Idealize.ShloMosaic.Lib.ValueIdx

set_option maxRecDepth 16384

noncomputable section

namespace Cert.KernelIdeal.HostStages

open Idealize.ShloMosaic Idealize.ShloMosaic.TcCoe Idealize.SL.Sem Idealize.ShloMosaic.ValueIdx Idealize.ShloMosaic.StableHlo
open Cert.KernelIdeal Cert.KernelIdeal.Gen

-- the buffers' contents when a stretch is entered
variable (W : Valuation τ sig (Elt Ideal))

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal))

/-! ## Before the first region: the edge list's two rows -/

/-- The sources: row 0 of the edge list. -/
theorem src_eq (h : W (Proc.devRef .tc main_arg1) = x1) :
    StableHlo.after hostOps0 W (Proc.devRef .tc main_v1) = Cert.ReferenceIdeal.Read.val_main_v1 (F := Ideal) x1 := by
  after_results
  rw [h]
  rfl

/-- The targets: row 1 of the edge list. -/
theorem dst_eq (h : W (Proc.devRef .tc main_arg1) = x1) :
    StableHlo.after hostOps0 W (Proc.devRef .tc main_v3) = Cert.ReferenceIdeal.Read.val_main_v3 (F := Ideal) x1 := by
  after_results
  rw [h]
  rfl

/-! ## Between the first projection and the first combine -/

/-- The first layer's aggregate: the projected rows gathered at the sources, scaled by both ends' inverse root degrees,
    scatter-added at the targets. -/
theorem agg1_eq (h1 : W (Proc.devRef .tc main_v1) = Cert.ReferenceIdeal.Read.val_main_v1 (F := Ideal) x1)
    (h3 : W (Proc.devRef .tc main_v3) = Cert.ReferenceIdeal.Read.val_main_v3 (F := Ideal) x1)
    (h4 : W (Proc.devRef .tc main_v4) = Cert.ReferenceIdeal.Read.val_main_v4 (F := Ideal) x0 x2) :
    StableHlo.after hostOps1 W (Proc.devRef .tc main_v39) = Cert.ReferenceIdeal.Read.val_main_v39 (F := Ideal) x0 x1 x2 := by
  after_results_simp
  rw [h1, h3, h4]
  rfl

/-- The squared inverse root degree, as a column. -/
theorem dis2col1_eq (h3 : W (Proc.devRef .tc main_v3) = Cert.ReferenceIdeal.Read.val_main_v3 (F := Ideal) x1) :
    StableHlo.after hostOps1 W (Proc.devRef .tc main_v41) = Cert.ReferenceIdeal.Read.val_main_v41 (F := Ideal) x1 := by
  after_results
  rw [h3]
  rfl

/-- The first bias as a row: the cast of the vector is the reference's broadcast of it into a row. -/
theorem biasrow1_eq (h : W (Proc.devRef .tc main_arg3) = x3) :
    StableHlo.after hostOps1 W (Proc.devRef .tc main_v42) = Cert.ReferenceIdeal.Read.val_main_v45 (F := Ideal) x3 := by
  after_results
  rw [h]
  funext i
  obtain ⟨u, q, rfl⟩ : ∃ (u : Fin 1) (q : Fin 64), i = ix2 u q := ⟨i 0, i 1, eq_ix2 i⟩
  rw [Cert.ReferenceIdeal.Read.val_main_v45_apply]
  show shapeCast (⟨2, ![1, 64]⟩ : Shape) x3 shapeCasts_S64_S1x64 (ix2 u q) = _
  rw [Cert.Lib.Rows.rowCast_apply]
  congr 1
  funext a
  match a with
  | ⟨0, _⟩ => rfl

/-! ## Between the second projection and the second combine -/

/-- The second layer's aggregate. -/
theorem agg2_eq (h1 : W (Proc.devRef .tc main_v1) = Cert.ReferenceIdeal.Read.val_main_v1 (F := Ideal) x1)
    (h3 : W (Proc.devRef .tc main_v3) = Cert.ReferenceIdeal.Read.val_main_v3 (F := Ideal) x1)
    (h44 : W (Proc.devRef .tc main_v44) = Cert.ReferenceIdeal.Read.val_main_v49 (F := Ideal) x0 x1 x2 x3 x4) :
    StableHlo.after hostOps3 W (Proc.devRef .tc main_v79) = Cert.ReferenceIdeal.Read.val_main_v84 (F := Ideal) x0 x1 x2 x3 x4 := by
  after_results_simp
  rw [h1, h3, h44]
  rfl

/-- The squared inverse root degree, as a column, computed again. -/
theorem dis2col2_eq (h3 : W (Proc.devRef .tc main_v3) = Cert.ReferenceIdeal.Read.val_main_v3 (F := Ideal) x1) :
    StableHlo.after hostOps3 W (Proc.devRef .tc main_v81) = Cert.ReferenceIdeal.Read.val_main_v86 (F := Ideal) x1 := by
  after_results
  rw [h3]
  rfl

/-- The second bias as a row. -/
theorem biasrow2_eq (x5 : (⟨S64, .f32⟩ : BufTy).Contents (Elt Ideal)) (h : W (Proc.devRef .tc main_arg5) = x5) :
    StableHlo.after hostOps3 W (Proc.devRef .tc main_v82) = Cert.ReferenceIdeal.Read.val_main_v90 (F := Ideal) x5 := by
  after_results
  rw [h]
  funext i
  obtain ⟨u, q, rfl⟩ : ∃ (u : Fin 1) (q : Fin 64), i = ix2 u q := ⟨i 0, i 1, eq_ix2 i⟩
  rw [Cert.ReferenceIdeal.Read.val_main_v90_apply]
  show shapeCast (⟨2, ![1, 64]⟩ : Shape) x5 shapeCasts_S64_S1x64 (ix2 u q) = _
  rw [Cert.Lib.Rows.rowCast_apply]
  congr 1
  funext a
  match a with
  | ⟨0, _⟩ => rfl

/-! ## Before the read-out -/

/-- The read-out's bias as a one-entry row. -/
theorem biasunit_eq (x7 : (⟨S1, .f32⟩ : BufTy).Contents (Elt Ideal)) (h : W (Proc.devRef .tc main_arg7) = x7) :
    StableHlo.after hostOps4 W (Proc.devRef .tc main_v84) = Cert.ReferenceIdeal.Read.val_main_v94 (F := Ideal) x7 := by
  after_results
  rw [h]
  funext i
  obtain ⟨u, q, rfl⟩ : ∃ (u : Fin 1) (q : Fin 1), i = ix2 u q := ⟨i 0, i 1, eq_ix2 i⟩
  rw [Cert.ReferenceIdeal.Read.val_main_v94_apply]
  show shapeCast (⟨2, ![1, 1]⟩ : Shape) x7 shapeCasts_S1_S1x1 (ix2 u q) = _
  rw [Cert.Lib.Rows.rowCast_apply]
  congr 1
  funext a
  match a with
  | ⟨0, _⟩ => exact Fin.ext (by show q.val = 0; omega)

end Cert.KernelIdeal.HostStages

end
-- ==== Proof.Persist.lean ====
/-
  Buffers a segment does not write keep their contents. Read back through the fold of boundary contents: an argument array
  that no host operation and no region writes holds its launch contents at every boundary (a region that reads it through
  an input window leaves it as entered); the edge list's two rows, written once before the first region, and each region's
  output, written once, stay as written until they are read.
-/
import proofs.«130188_j48095043781198_1_alg».proof.Proof.Gen.KernelIdeal.Frame

set_option maxRecDepth 16384

noncomputable section

namespace Cert.KernelIdeal.Persist

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- A host stretch whose operations all write buffers other than `b` leaves `b` as it was: every operation of the
    stretch writes a single named buffer, and that name differs from `b`. -/
local macro "host_keeps " ops:ident " at " b:term : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## At the first region's entry -/
theorem p1_arg0 : W1 m ρ c (Proc.devRef .tc main_arg0) = m ((c : Thread nD τ).loc main_arg0) :=
  calc W1 m ρ c (Proc.devRef .tc main_arg0)
    _ = W0 m ρ c (Proc.devRef .tc main_arg0) := host_keeps hostOps0 at main_arg0
    _ = m ((c : Thread nD τ).loc main_arg0) := rfl
theorem p1_arg2 : W1 m ρ c (Proc.devRef .tc main_arg2) = m ((c : Thread nD τ).loc main_arg2) :=
  calc W1 m ρ c (Proc.devRef .tc main_arg2)
    _ = W0 m ρ c (Proc.devRef .tc main_arg2) := host_keeps hostOps0 at main_arg2
    _ = m ((c : Thread nD τ).loc main_arg2) := rfl

/-! ## At the first region's exit -/
theorem p2_v1 : W2 m ρ c (Proc.devRef .tc main_v1) = W1 m ρ c (Proc.devRef .tc main_v1) :=
  W2_of_ne m ρ c main_v1 (by decide)
theorem p2_v3 : W2 m ρ c (Proc.devRef .tc main_v3) = W1 m ρ c (Proc.devRef .tc main_v3) :=
  W2_of_ne m ρ c main_v3 (by decide)
theorem p2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := host_keeps hostOps0 at main_arg3
    _ = m ((c : Thread nD τ).loc main_arg3) := rfl

/-! ## At the second region's entry and exit -/
theorem p3_v4 : W3 m ρ c (Proc.devRef .tc main_v4) = W2 m ρ c (Proc.devRef .tc main_v4) :=
  host_keeps hostOps1 at main_v4
theorem p4_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := host_keeps hostOps1 at main_arg4
    _ = W1 m ρ c (Proc.devRef .tc main_arg4) := W2_of_ne m ρ c main_arg4 (by decide)
    _ = W0 m ρ c (Proc.devRef .tc main_arg4) := host_keeps hostOps0 at main_arg4
    _ = m ((c : Thread nD τ).loc main_arg4) := rfl

/-! ## At the third region's exit -/
theorem p5_v1 : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := host_keeps hostOps1 at main_v1
    _ = W1 m ρ c (Proc.devRef .tc main_v1) := W2_of_ne m ρ c main_v1 (by decide)
theorem p5_v3 : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := host_keeps hostOps1 at main_v3
    _ = W1 m ρ c (Proc.devRef .tc main_v3) := W2_of_ne m ρ c main_v3 (by decide)
theorem p5_arg5 : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := host_keeps hostOps1 at main_arg5
    _ = W1 m ρ c (Proc.devRef .tc main_arg5) := W2_of_ne m ρ c main_arg5 (by decide)
    _ = W0 m ρ c (Proc.devRef .tc main_arg5) := host_keeps hostOps0 at main_arg5
    _ = m ((c : Thread nD τ).loc main_arg5) := rfl

/-! ## At the fourth region's entry and exit -/
theorem p6_v44 : W6 m ρ c (Proc.devRef .tc main_v44) = W5 m ρ c (Proc.devRef .tc main_v44) :=
  host_keeps hostOps3 at main_v44
theorem p7_arg7 : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := host_keeps hostOps3 at main_arg7
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := host_keeps hostOps1 at main_arg7
    _ = W1 m ρ c (Proc.devRef .tc main_arg7) := W2_of_ne m ρ c main_arg7 (by decide)
    _ = W0 m ρ c (Proc.devRef .tc main_arg7) := host_keeps hostOps0 at main_arg7
    _ = m ((c : Thread nD τ).loc main_arg7) := rfl

/-! ## At the last region's entry -/
theorem p8_v83 : W8 m ρ c (Proc.devRef .tc main_v83) = W7 m ρ c (Proc.devRef .tc main_v83) :=
  host_keeps hostOps4 at main_v83
theorem p8_arg6 : W8 m ρ c (Proc.devRef .tc main_arg6) = m ((c : Thread nD τ).loc main_arg6) :=
  calc W8 m ρ c (Proc.devRef .tc main_arg6)
    _ = W7 m ρ c (Proc.devRef .tc main_arg6) := host_keeps hostOps4 at main_arg6
    _ = W6 m ρ c (Proc.devRef .tc main_arg6) := W7_of_ne m ρ c main_arg6 (by decide)
    _ = W5 m ρ c (Proc.devRef .tc main_arg6) := host_keeps hostOps3 at main_arg6
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := host_keeps hostOps1 at main_arg6
    _ = W1 m ρ c (Proc.devRef .tc main_arg6) := W2_of_ne m ρ c main_arg6 (by decide)
    _ = W0 m ρ c (Proc.devRef .tc main_arg6) := host_keeps hostOps0 at main_arg6
    _ = m ((c : Thread nD τ).loc main_arg6) := rfl

end Cert.KernelIdeal.Persist

end
-- ==== Proof.Chain.lean ====
/-
  The result buffer at the last segment boundary is the reference's result. The boundary contents are walked once from the
  launch memory: before the first region the edge list is split into sources and targets; each tiled region leaves in its
  output array the whole-array function its tiles compute (the projections, the two combines, the read-out), which is what
  the reference's stage of the same place computes from the same inputs; each host stretch in between runs the
  reference's own operations on equal inputs; and a buffer no segment writes keeps its contents until it is read. So,
  stage by stage, every buffer the tiled program reads holds the reference's stage, and the last region's output holds the
  reference's result as a function of the eight argument arrays.
-/
import proofs.«130188_j48095043781198_1_alg».proof.Proof.Gen.KernelIdeal.Frame
import proofs.«130188_j48095043781198_1_alg».proof.Proof.Region0
import proofs.«130188_j48095043781198_1_alg».proof.Proof.Region1
import proofs.«130188_j48095043781198_1_alg».proof.Proof.Region2
import proofs.«130188_j48095043781198_1_alg».proof.Proof.Region3
import proofs.«130188_j48095043781198_1_alg».proof.Proof.Region4
import proofs.«130188_j48095043781198_1_alg».proof.Proof.RefStages
import proofs.«130188_j48095043781198_1_alg».proof.Proof.HostStages
import proofs.«130188_j48095043781198_1_alg».proof.Proof.Persist

set_option maxRecDepth 16384

noncomputable section

namespace Cert.KernelIdeal.Chain

open Idealize.ShloMosaic Idealize.ShloMosaic.TcCoe Idealize.SL.Sem
open Cert.KernelIdeal Cert.KernelIdeal.Gen
open Cert.ReferenceIdeal.Read

/-- Equal arguments, equal values: three and four at a time. -/
private theorem congr3 {α β γ δ : Sort _} (f : α → β → γ → δ) {a a' : α} {b b' : β} {d d' : γ}
    (ha : a = a') (hb : b = b') (hd : d = d') : f a b d = f a' b' d' := by subst ha hb hd; rfl
private theorem congr4 {α β γ δ ε : Sort _} (f : α → β → γ → δ → ε) {a a' : α} {b b' : β} {d d' : γ} {e e' : δ}
    (ha : a = a') (hb : b = b') (hd : d = d') (he : e = e') : f a b d e = f a' b' d' e' := by subst ha hb hd he; rfl

variable (m : (ℓ : Loc nD τ sig) → Buf (Elt Ideal) ℓ) (ρ : Dev nD → PrngReg) (c : Dev nD)

/-! ## Before the first region -/

theorem w1_v1 : W1 m ρ c (Proc.devRef .tc main_v1) = val_main_v1 (F := Ideal) (m ((c : Thread nD τ).loc main_arg1)) :=
  HostStages.src_eq (W0 m ρ c) (m ((c : Thread nD τ).loc main_arg1)) rfl

theorem w1_v3 : W1 m ρ c (Proc.devRef .tc main_v3) = val_main_v3 (F := Ideal) (m ((c : Thread nD τ).loc main_arg1)) :=
  HostStages.dst_eq (W0 m ρ c) (m ((c : Thread nD τ).loc main_arg1)) rfl

/-! ## The first projection -/

theorem w2_v4 : W2 m ρ c (Proc.devRef .tc main_v4) = val_main_v4 (F := Ideal) (m ((c : Thread nD τ).loc main_arg0)) (m ((c : Thread nD τ).loc main_arg2)) :=
  (W2_arr m ρ c 2).trans ((Region0.final (V1 m ρ) c).trans
    ((congrArg₂ Cert.Spec.mm (Persist.p1_arg0 m ρ c) (Persist.p1_arg2 m ρ c)).trans
      (Cert.ReferenceIdeal.RefSpec.v4_eq (m ((c : Thread nD τ).loc main_arg0)) (m ((c : Thread nD τ).loc main_arg2))).symm))

theorem w2_v1 : W2 m ρ c (Proc.devRef .tc main_v1) = val_main_v1 (F := Ideal) (m ((c : Thread nD τ).loc main_arg1)) :=
  (Persist.p2_v1 m ρ c).trans (w1_v1 m ρ c)

theorem w2_v3 : W2 m ρ c (Proc.devRef .tc main_v3) = val_main_v3 (F := Ideal) (m ((c : Thread nD τ).loc main_arg1)) :=
  (Persist.p2_v3 m ρ c).trans (w1_v3 m ρ c)

/-! ## The first layer's aggregate, degree column and bias row; the first combine -/

theorem w3_v39 : W3 m ρ c (Proc.devRef .tc main_v39) = val_main_v39 (F := Ideal) (m ((c : Thread nD τ).loc main_arg0)) (m ((c : Thread nD τ).loc main_arg1)) (m ((c : Thread nD τ).loc main_arg2)) :=
  HostStages.agg1_eq (W2 m ρ c) (m ((c : Thread nD τ).loc main_arg0)) (m ((c : Thread nD τ).loc main_arg1)) (m ((c : Thread nD τ).loc main_arg2)) (w2_v1 m ρ c) (w2_v3 m ρ c) (w2_v4 m ρ c)

theorem w3_v41 : W3 m ρ c (Proc.devRef .tc main_v41) = val_main_v41 (F := Ideal) (m ((c : Thread nD τ).loc main_arg1)) :=
  HostStages.dis2col1_eq (W2 m ρ c) (m ((c : Thread nD τ).loc main_arg1)) (w2_v3 m ρ c)

theorem w3_v42 : W3 m ρ c (Proc.devRef .tc main_v42) = val_main_v45 (F := Ideal) (m ((c : Thread nD τ).loc main_arg3)) :=
  HostStages.biasrow1_eq (W2 m ρ c) (m ((c : Thread nD τ).loc main_arg3)) (Persist.p2_arg3 m ρ c)

theorem w3_v4 : W3 m ρ c (Proc.devRef .tc main_v4) = val_main_v4 (F := Ideal) (m ((c : Thread nD τ).loc main_arg0)) (m ((c : Thread nD τ).loc main_arg2)) :=
  (Persist.p3_v4 m ρ c).trans (w2_v4 m ρ c)

theorem w4_v43 : W4 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) :=
  (W4_arr m ρ c 4).trans ((Region1.final (V3 m ρ) c).trans
    ((congr4 Cert.Spec.combineRelu (w3_v39 m ρ c) (w3_v4 m ρ c) (w3_v41 m ρ c) (w3_v42 m ρ c)).trans
      (Cert.ReferenceIdeal.RefSpec.v48_eq (m ((c : Thread nD τ).loc main_arg0)) (m ((c : Thread nD τ).loc main_arg1)) (m ((c : Thread nD τ).loc main_arg2)) (m ((c : Thread nD τ).loc main_arg3))).symm))

/-! ## The second projection -/

theorem w5_v44 : W5 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans ((Region2.final (V4 m ρ) c).trans
    ((congrArg₂ Cert.Spec.mm (w4_v43 m ρ c) (Persist.p4_arg4 m ρ c)).trans
      (Cert.ReferenceIdeal.RefSpec.v49_eq (m ((c : Thread nD τ).loc main_arg0)) (m ((c : Thread nD τ).loc main_arg1)) (m ((c : Thread nD τ).loc main_arg2)) (m ((c : Thread nD τ).loc main_arg3)) (m ((c : Thread nD τ).loc main_arg4))).symm))

theorem w5_v1 : W5 m ρ c (Proc.devRef .tc main_v1) = val_main_v1 (F := Ideal) (m ((c : Thread nD τ).loc main_arg1)) :=
  (Persist.p5_v1 m ρ c).trans (w1_v1 m ρ c)

theorem w5_v3 : W5 m ρ c (Proc.devRef .tc main_v3) = val_main_v3 (F := Ideal) (m ((c : Thread nD τ).loc main_arg1)) :=
  (Persist.p5_v3 m ρ c).trans (w1_v3 m ρ c)

/-! ## The second layer's aggregate, degree column and bias row; the second combine -/

theorem w6_v79 : W6 m ρ c (Proc.devRef .tc main_v79) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  HostStages.agg2_eq (W5 m ρ c) (m ((c : Thread nD τ).loc main_arg0)) (m ((c : Thread nD τ).loc main_arg1)) (m ((c : Thread nD τ).loc main_arg2)) (m ((c : Thread nD τ).loc main_arg3)) (m ((c : Thread nD τ).loc main_arg4)) (w5_v1 m ρ c) (w5_v3 m ρ c) (w5_v44 m ρ c)

theorem w6_v81 : W6 m ρ c (Proc.devRef .tc main_v81) = val_main_v86 (F := Ideal) (m ((c : Thread nD τ).loc main_arg1)) :=
  HostStages.dis2col2_eq (W5 m ρ c) (m ((c : Thread nD τ).loc main_arg1)) (w5_v3 m ρ c)

theorem w6_v82 : W6 m ρ c (Proc.devRef .tc main_v82) = val_main_v90 (F := Ideal) (m ((c : Thread nD τ).loc main_arg5)) :=
  HostStages.biasrow2_eq (W5 m ρ c) (m ((c : Thread nD τ).loc main_arg5)) (Persist.p5_arg5 m ρ c)

theorem w6_v44 : W6 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (Persist.p6_v44 m ρ c).trans (w5_v44 m ρ c)

theorem w7_v83 : W7 m ρ c (Proc.devRef .tc main_v83) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 4).trans ((Region3.final (V6 m ρ) c).trans
    ((congr4 Cert.Spec.combine (w6_v79 m ρ c) (w6_v44 m ρ c) (w6_v81 m ρ c) (w6_v82 m ρ c)).trans
      (Cert.ReferenceIdeal.RefSpec.v92_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm))

/-! ## The read-out -/

theorem w8_v84 : W8 m ρ c (Proc.devRef .tc main_v84) = val_main_v94 (F := Ideal) (m ((c : Thread nD τ).loc main_arg7)) :=
  HostStages.biasunit_eq (W7 m ρ c) (m ((c : Thread nD τ).loc main_arg7)) (Persist.p7_arg7 m ρ c)

theorem w8_v83 : W8 m ρ c (Proc.devRef .tc main_v83) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Persist.p8_v83 m ρ c).trans (w7_v83 m ρ c)

/-- The result buffer after the last region is the reference's result stage of the eight argument arrays. -/
theorem result : W9 m ρ c (Proc.devRef .tc main_v85) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W9_arr m ρ c 3).trans ((Region4.final (V8 m ρ) c).trans
    ((congr3 Cert.Spec.linsig (w8_v83 m ρ c) (Persist.p8_arg6 m ρ c) (w8_v84 m ρ c)).trans
      (Cert.ReferenceIdeal.RefSpec.v102_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm))

end Cert.KernelIdeal.Chain

end
-- ==== Proof.lean ====
/-
  The tiled two-layer graph network against its whole-array reference, over the extended reals.

  Both programs compute, for node features x, an edge list and weights W1, b1, W2, b2, Wl, bl:
    h1 = relu((agg(x·W1) + d²·(x·W1)) + b1),  h2 = (agg(h1·W2) + d²·(h1·W2)) + b2,  out = logistic(h2·Wl + bl),
  where d is the inverse square root of the in-degree plus one and agg gathers rows at the edges' sources, scales them by
  d at both ends and scatter-adds them at the targets. The tiled program computes the three dense stages of each line —
  the products, the combines, the read-out — 5000 rows at a time, with the products into a zero accumulator through a
  narrower float format; the reference by whole-array operations, its logistic spelt as 1 / (1 + exp(−·)). At the extended
  reals a change of float format is the identity, a product into zero is the plain sum of products, and the logistic
  function is that quotient at every extended real; the gather and scatter stretches are the same operations on both sides.
  So the two results are one function of the arguments, with no appeal to finiteness of the inputs.

  The three frames are the generated ones (the reference's: its generated run with the result dropped); the idealization
  rewrote nothing, so `preserves` is trivial; `algebraic`: the tiled program's run with its result named at the last
  boundary's contents (RunNamed), that buffer read back stage by stage to the reference's result stage (Chain, over
  Region0–4, HostStages, Persist, RefStages, Spec), and the reference's generated run.
-/
import proofs.«130188_j48095043781198_1_alg».proof.Defs
import proofs.«130188_j48095043781198_1_alg».proof.Proof.Gen.Kernel
import proofs.«130188_j48095043781198_1_alg».proof.Proof.Gen.Kernel.Skeleton
import proofs.«130188_j48095043781198_1_alg».proof.Proof.Gen.Kernel.Launch
import proofs.«130188_j48095043781198_1_alg».proof.Proof.Gen.Kernel.Points
import proofs.«130188_j48095043781198_1_alg».proof.Proof.Gen.Kernel.Frame
import proofs.«130188_j48095043781198_1_alg».proof.Proof.Gen.KernelIdeal
import proofs.«130188_j48095043781198_1_alg».proof.Proof.Gen.KernelIdeal.Skeleton
import proofs.«130188_j48095043781198_1_alg».proof.Proof.Gen.KernelIdeal.Launch
import proofs.«130188_j48095043781198_1_alg».proof.Proof.Gen.KernelIdeal.Points
import proofs.«130188_j48095043781198_1_alg».proof.Proof.Gen.KernelIdeal.Frame
import proofs.«130188_j48095043781198_1_alg».proof.Proof.Gen.ReferenceIdeal
import proofs.«130188_j48095043781198_1_alg».proof.Proof.Gen.Pre_finite_inputs
import proofs.«130188_j48095043781198_1_alg».proof.Proof.Gen.ReferenceIdeal.Run
import proofs.«130188_j48095043781198_1_alg».proof.Proof.Gen.ReferenceIdeal.Read
import proofs.«130188_j48095043781198_1_alg».proof.Proof.RunNamed
import proofs.«130188_j48095043781198_1_alg».proof.Proof.Chain
import Idealize.ShloMosaic.Adequacy
import Idealize.ShloMosaic.Init

noncomputable section

namespace Cert.Proof

open Idealize.ShloMosaic Idealize.ShloMosaic.TcCoe Idealize.SL.Sem

/-- The tiled program at the word level runs and keeps its arguments. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the eight arguments both programs end with the same result array: the reference's result
    stage of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v85),
    Cert.KernelIdeal.Gen.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v102_eq, e0, e1, e2, e3, e4, e5, e6, e7]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
